-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 36
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S_, .f32⟩
  | .hbm, ⟨41, _⟩ => ⟨S100000x64, .f32⟩
  | .hbm, ⟨42, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelBlocks.lean ====
/-
  The kernel's input and output blocks as entries of their arrays.

  The kernel runs at 20 grid points. At point `t` the pipeline hands it rows 5000·t … 5000·t + 4999 of the
  neighbour-mean array and of the node features (block index (t, 0) of 5000 × 64 blocks) and takes back the same
  rows of the result; at every point it hands it the whole of each weight matrix and of the bias row (block
  index (0, 0)). A block's position is the array index (block index × block size + position), axis by axis.
-/
import proofs.«178219_j7550552506693_1_alg».proof.Proof.Gen.KernelIdeal.Value
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

theorem zero_offsets : (![0, 0] : Fin 2 → Nat) = fun _ => 0 := funext fun a => by fin_cases a <;> rfl

/-- The block index of every window at every grid point: the three row-blocked arrays move with the point, the
    weights and the bias stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Where a block's position sits in its array

A block's position `y` at point `t` is the array index (block index × block size + position), axis by axis. -/

/-- Position `y` of the neighbour-mean block at point `t` is row 5000·t + y₀, column y₁ of its array. -/
theorem mean_block_at (t : Fin cfg0.N) (y : S5000x64.Idx) (i : S100000x64.Idx)
    (h0 : (i 0).val = 5000 * t.val + (y 0).val) (h1 : (i 1).val = (y 1).val) :
    ((cfg0.win 0).blk t).view.emb y = i := by
  obtain ⟨e0, e1, -⟩ := block_indices t
  funext a; apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- Position `y` of the feature block at point `t` is row 5000·t + y₀, column y₁ of its array. -/
theorem feature_block_at (t : Fin cfg0.N) (y : S5000x64.Idx) (i : S100000x64.Idx)
    (h0 : (i 0).val = 5000 * t.val + (y 0).val) (h1 : (i 1).val = (y 1).val) :
    ((cfg0.win 1).blk t).view.emb y = i := by
  obtain ⟨-, -, e0, e1, -⟩ := block_indices t
  funext a; apply Fin.ext
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- The first weight block at every point is the whole matrix: position `y` is index `y`. -/
theorem left_weight_block_at (t : Fin cfg0.N) (y : S64x64.Idx) : ((cfg0.win 2).blk t).view.emb y = y := by
  obtain ⟨-, -, -, -, e0, e1, -⟩ := block_indices t
  funext a; apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The second weight block at every point is the whole matrix. -/
theorem right_weight_block_at (t : Fin cfg0.N) (y : S64x64.Idx) : ((cfg0.win 3).blk t).view.emb y = y := by
  obtain ⟨-, -, -, -, -, -, e0, e1, -⟩ := block_indices t
  funext a; apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The bias block at every point is the whole bias row. -/
theorem bias_block_at (t : Fin cfg0.N) (y : S1x64.Idx) : ((cfg0.win 4).blk t).view.emb y = y := by
  obtain ⟨-, -, -, -, -, -, -, -, e0, e1, -⟩ := block_indices t
  funext a; apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Position `y` of the result block at point `t` is row 5000·t + y₀, column y₁ of the result array. -/
theorem result_block_at (t : Fin cfg0.N) (y : S5000x64.Idx) (i : S100000x64.Idx)
    (h0 : (i 0).val = 5000 * t.val + (y 0).val) (h1 : (i 1).val = (y 1).val) :
    ((cfg0.win 5).blk t).view.emb y = i := by
  obtain ⟨-, -, -, -, -, -, -, -, -, -, e0, e1⟩ := block_indices t
  funext a; apply Fin.ext
  match a with
  | ⟨0, _⟩ => show win0_5.index t (0 : Fin 2) * 5000 + 1 * (y 0).val = (i 0).val; rw [e0, h0]; omega
  | ⟨1, _⟩ => show win0_5.index t (1 : Fin 2) * 64 + 1 * (y 1).val = (i 1).val; rw [e1, h1]; omega

/-! ## A block of ANY array, entry by entry

Stated for arbitrary array contents, so that nothing about how an array was computed is ever opened. -/

/-- An entry of the neighbour-mean window's block of an array `A`. -/
theorem mean_block_entry (t : Fin cfg0.N) (A : S100000x64.Idx → EReal) (y : S5000x64.Idx) (i : S100000x64.Idx)
    (h0 : (i 0).val = 5000 * t.val + (y 0).val) (h1 : (i 1).val = (y 1).val) :
    (((cfg0.win 0).blk t).view.read (Elt Ideal) A : Vec Ideal S5000x64 .f32) y = A i := by
  rw [View.read_apply, mean_block_at t y i h0 h1]; rfl

/-- An entry of the feature window's block of an array `X`. -/
theorem feature_block_entry (t : Fin cfg0.N) (X : S100000x64.Idx → EReal) (y : S5000x64.Idx) (i : S100000x64.Idx)
    (h0 : (i 0).val = 5000 * t.val + (y 0).val) (h1 : (i 1).val = (y 1).val) :
    (((cfg0.win 1).blk t).view.read (Elt Ideal) X : Vec Ideal S5000x64 .f32) y = X i := by
  rw [View.read_apply, feature_block_at t y i h0 h1]; rfl

/-- An entry of the first weight window's block of a matrix `W`. -/
theorem left_weight_block_entry (t : Fin cfg0.N) (W : S64x64.Idx → EReal) (y : S64x64.Idx) :
    (((cfg0.win 2).blk t).view.read (Elt Ideal) W : Vec Ideal S64x64 .f32) y = W y := by
  rw [View.read_apply, left_weight_block_at t y]; rfl

/-- An entry of the second weight window's block of a matrix `W`. -/
theorem right_weight_block_entry (t : Fin cfg0.N) (W : S64x64.Idx → EReal) (y : S64x64.Idx) :
    (((cfg0.win 3).blk t).view.read (Elt Ideal) W : Vec Ideal S64x64 .f32) y = W y := by
  rw [View.read_apply, right_weight_block_at t y]; rfl

/-- An entry of the bias window's block of a row `B`. -/
theorem bias_block_entry (t : Fin cfg0.N) (B : S1x64.Idx → EReal) (y : S1x64.Idx) :
    (((cfg0.win 4).blk t).view.read (Elt Ideal) B : Vec Ideal S1x64 .f32) y = B y := by
  rw [View.read_apply, bias_block_at t y]; rfl

end Cert.KernelIdeal.Whole

end
-- ==== Proof.KernelEntry.lean ====
/-
  What the kernel body stores, read at one entry of its 5000 × 64 block.

  The body multiplies the block of neighbour means by Wl and the block of node features by Wr on the matrix
  unit (each product accumulated into a zero block), adds the two, adds the bias row broadcast down the rows, and
  takes the maximum with zero. At the extended reals a change of float format is the identity and a matrix
  product into a zero accumulator is the plain sum over the contraction index, so the entry at row `p`,
  column `q` of the block is

      max ( Σ_k a[p, k] · wl[k, q]  +  Σ_k x[p, k] · wr[k, q]  +  b[0, q] ,  0 ).
-/
import proofs.«178219_j7550552506693_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Idealize.ShloMosaic Idealize.ShloMosaic.ValueIdx

/-! ## The block product's operand indices

For the product of a 5000 × 64 block with a 64 × 64 matrix, output index (row, column) and contraction index
`k` read the left operand at (row, k) and the right operand at (k, column). -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at row `p` and column `q`: the sum over the 64 contraction
    positions of left[p, k] · right[k, q]. -/
theorem block_product_entry {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the 5000 rows, at row `p` and column `q`, is the bias at column `q`. -/
theorem bias_rows_entry (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => show 0 = if (1 : Nat) = 1 then 0 else p.val; rw [if_pos rfl]
    | ⟨1, _⟩ => show q.val = if (64 : Nat) = 1 then 0 else q.val; rw [if_neg (by decide)])

/-- THE STORED VALUE at row `p`, column `q` of the block, from the five loaded blocks. -/
theorem payload_entry (a x : Vec Ideal S5000x64 .f32) (wl wr : Vec Ideal S64x64 .f32) (b : Vec Ideal S1x64 .f32) (p : Fin 5000) (q : Fin 64) :
    k0_pay1 (F := Ideal) a x wl wr b (ix2 p q)
      = max ((∑ k : Fin 64, a (ix2 p k) * wl (ix2 k q)) + (∑ k : Fin 64, x (ix2 p k) * wr (ix2 k q)) + b (ix2 0 q))
          (Ideal.ofBits .f32 0x00000000#32) := by
  unfold k0_pay1
  simp only [shapeCast_self]
  rw [maximumf_apply, addf_apply, addf_apply, block_product_entry, block_product_entry, bias_rows_entry, broadcast_apply]
  rfl

end Cert.KernelIdeal.Entry

end
-- ==== Proof.SageSpec.lean ====
/-
  One mean-aggregating graph-convolution layer, entry by entry, on the extended reals.

  Given the array `agg` of neighbour means (one row of 64 features per node), the node features `x`, the two
  64 × 64 weight matrices and the bias row, the layer's output at node `r`, feature `j` is

      max ( Σ_k agg[r, k] · Wl[k, j]  +  Σ_k x[r, k] · Wr[k, j]  +  b[j] ,  0 ).

  Both programs of this certificate compute exactly this expression: the kernel one block of 5000 rows at a
  time, the reference on all 100000 rows at once. No law of arithmetic beyond reading each matrix product as a
  sum over its contraction index is needed, so nothing here asks the inputs to be finite.
-/
import Idealize.ShloMosaic.PureOps.Ideal
import Idealize.ShloMosaic.Lib.ValueIdx

noncomputable section

namespace Cert.Sage

open Idealize.ShloMosaic Idealize.ShloMosaic.ValueIdx

/-- The layer's output array as one function of the neighbour means, the features, the weights and the bias.
    The floor of the final maximum is kept as the float zero's word read at the extended reals. -/
def layer (agg x : (⟨2, ![100000, 64]⟩ : Shape).Idx → EReal) (wl wr : (⟨2, ![64, 64]⟩ : Shape).Idx → EReal)
    (bias : Fin 64 → EReal) : (⟨2, ![100000, 64]⟩ : Shape).Idx → EReal :=
  fun i => max ((∑ k : Fin 64, agg (ix2 (i 0) k) * wl (ix2 k (i 1))) + (∑ k : Fin 64, x (ix2 (i 0) k) * wr (ix2 k (i 1))) + bias (i 1))
    (Ideal.ofBits .f32 0x00000000#32)

/-- The same entry with the row and the column named. -/
theorem layer_apply (agg x : (⟨2, ![100000, 64]⟩ : Shape).Idx → EReal) (wl wr : (⟨2, ![64, 64]⟩ : Shape).Idx → EReal)
    (bias : Fin 64 → EReal) (r : Fin 100000) (j : Fin 64) :
    layer agg x wl wr bias (ix2 r j)
      = max ((∑ k : Fin 64, agg (ix2 r k) * wl (ix2 k j)) + (∑ k : Fin 64, x (ix2 r k) * wr (ix2 k j)) + bias j)
          (Ideal.ofBits .f32 0x00000000#32) := rfl

end Cert.Sage

end
-- ==== Proof.KernelPoint.lean ====
/-
  What one grid point writes back.

  The value stored at row `p`, column `q` of the block at point `t` is the layer function of the five arrays the
  blocks were cut from, at row 5000·t + p, column `q`. So point `t` writes back block `t` of that one whole-array
  function. Stated first for arbitrary contents of the five arrays, then for the arrays as the kernel finds them.
-/
import proofs.«178219_j7550552506693_1_alg».proof.Proof.KernelBlocks
import proofs.«178219_j7550552506693_1_alg».proof.Proof.KernelEntry
import proofs.«178219_j7550552506693_1_alg».proof.Proof.SageSpec

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

/-! ## What one point stores, for ANY contents of the five arrays -/

/-- The value stored at row `p`, column `q` of the block at point `t` is the layer function of the five arrays at
    row 5000·t + p, column `q`: the block's entry formula with each loaded block read as rows of its array. -/
theorem point_entry (t : Fin cfg0.N) (A X : S100000x64.Idx → EReal) (WL WR : S64x64.Idx → EReal) (B : S1x64.Idx → EReal)
    (p : Fin 5000) (q : Fin 64) (r : Fin 100000) (hr : r.val = 5000 * t.val + p.val) :
    k0_pay1 (F := Ideal) (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B) (ix2 p q)
      = Cert.Sage.layer A X WL WR (fun q => B (ix2 0 q)) (ix2 r q) := by
  refine (Cert.KernelIdeal.Entry.payload_entry (((cfg0.win 0).blk t).view.read (Elt Ideal) A) (((cfg0.win 1).blk t).view.read (Elt Ideal) X)
    (((cfg0.win 2).blk t).view.read (Elt Ideal) WL) (((cfg0.win 3).blk t).view.read (Elt Ideal) WR)
    (((cfg0.win 4).blk t).view.read (Elt Ideal) B) p q).trans ?_
  rw [Cert.Sage.layer_apply]
  have ea : ∀ k : Fin 64, (((cfg0.win 0).blk t).view.read (Elt Ideal) A : Vec Ideal S5000x64 .f32) (ix2 p k) = A (ix2 r k) :=
    fun k => mean_block_entry t A (ix2 p k) (ix2 r k) hr rfl
  have ex : ∀ k : Fin 64, (((cfg0.win 1).blk t).view.read (Elt Ideal) X : Vec Ideal S5000x64 .f32) (ix2 p k) = X (ix2 r k) :=
    fun k => feature_block_entry t X (ix2 p k) (ix2 r k) hr rfl
  have el : ∀ k : Fin 64, (((cfg0.win 2).blk t).view.read (Elt Ideal) WL : Vec Ideal S64x64 .f32) (ix2 k q) = WL (ix2 k q) :=
    fun k => left_weight_block_entry t WL (ix2 k q)
  have er : ∀ k : Fin 64, (((cfg0.win 3).blk t).view.read (Elt Ideal) WR : Vec Ideal S64x64 .f32) (ix2 k q) = WR (ix2 k q) :=
    fun k => right_weight_block_entry t WR (ix2 k q)
  have eb : (((cfg0.win 4).blk t).view.read (Elt Ideal) B : Vec Ideal S1x64 .f32) (ix2 0 q) = B (ix2 0 q) :=
    bias_block_entry t B (ix2 0 q)
  simp only [ea, ex, el, er, eb]

/-- So the whole stored block at point `t`, taken back through the result window, is block `t` of the layer
    function of the five arrays. -/
theorem point_block (t : Fin cfg0.N) (A X : S100000x64.Idx → EReal) (WL WR : S64x64.Idx → EReal) (B : S1x64.Idx → EReal) :
    (cfg0.win 5).cut (grid0.coords t) (k0_pay1 (F := Ideal) (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B))
      = ((cfg0.win 5).blk t).view.read (Elt Ideal) (Cert.Sage.layer A X WL WR (fun q => B (ix2 0 q))) := by
  funext j
  show k0_pay1 (F := Ideal) (((cfg0.win 0).blk t).view.read (Elt Ideal) A) (((cfg0.win 1).blk t).view.read (Elt Ideal) X)
        (((cfg0.win 2).blk t).view.read (Elt Ideal) WL) (((cfg0.win 3).blk t).view.read (Elt Ideal) WR)
        (((cfg0.win 4).blk t).view.read (Elt Ideal) B) j
      = Cert.Sage.layer A X WL WR (fun q => B (ix2 0 q)) (((cfg0.win 5).blk t).view.emb j)
  have hj0 : (j 0).val < 5000 := (j 0).isLt
  have hj1 : (j 1).val < 64 := (j 1).isLt
  have ht : t.val < 20 := by have h := t.isLt; have hN : cfg0.N = 20 := N_0; omega
  have hjj : j = ix2 (⟨(j 0).val, hj0⟩ : Fin 5000) (⟨(j 1).val, hj1⟩ : Fin 64) := by
    funext a; apply Fin.ext
    match a with
    | ⟨0, _⟩ => rfl
    | ⟨1, _⟩ => rfl
  have e1 := point_entry t A X WL WR B ⟨(j 0).val, hj0⟩ ⟨(j 1).val, hj1⟩ ⟨5000 * t.val + (j 0).val, by omega⟩ rfl
  rw [← hjj] at e1
  rw [result_block_at t j (ix2 (⟨5000 * t.val + (j 0).val, by omega⟩ : Fin 100000) (⟨(j 1).val, hj1⟩ : Fin 64)) rfl rfl]
  exact e1

/-! ## What one point writes back, for the arrays the kernel finds -/

variable (m : (ℓ : Loc nD τ sig) → Buf (Elt Ideal) ℓ)

/-- The layer function of the arrays as the kernel finds them. -/
abbrev found (c : Dev nD) : S100000x64.Idx → EReal :=
  Cert.Sage.layer (V m c main_v22) (V m c main_arg0) (V m c main_arg2) (V m c main_arg3) (fun q => (V m c main_v23 : S1x64.Idx → EReal) (ix2 0 q))

/-- WHAT POINT `t` WRITES BACK is block `t` of the layer function of the arrays as the kernel finds them. -/
theorem flushed_eq (c : Dev nD) (t : Fin cfg0.N) :
    (dats m 0 c).flushed 5 t = ((cfg0.win 5).blk t).view.read (Elt Ideal) (found m c) := by
  rw [Value.flushed5]
  unfold out0_5
  rw [View.canon_unit_zero zero_offsets]
  simp only [View.ld_unit_zero (S := S5000x64) zero_offsets, View.ld_unit_zero (S := S64x64) zero_offsets, View.ld_unit_zero (S := S1x64) zero_offsets]
  unfold iblk
  exact point_block t (V m c main_v22) (V m c main_arg0) (V m c main_arg2) (V m c main_arg3) (V m c main_v23)

end Cert.KernelIdeal.Whole

end
-- ==== Proof.KernelCover.lean ====
/-
  The 20 row blocks cover the result array.

  Row `r` of the 100000 × 64 result lies in the block of point `r / 5000`, and every point writes its block
  back; so the array after the run is, everywhere, the one function whose blocks the points wrote.
-/
import proofs.«178219_j7550552506693_1_alg».proof.Proof.KernelPoint

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

/-! ## The 20 row blocks cover the array -/

/-- An index of the result array is in point `t`'s block iff each coordinate is in the block's range. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v24).slice (win0_5.rect t)).set ↔ _
  rw [View.set_slice_whole, Rect.mem_set_unit]
  exact Iff.rfl

/-- Row `r` lies in the block of point `r / 5000`. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, -, -, -, -, -, -, e0, e1⟩ := block_indices t
  have htv : t.val = (i 0).val / 5000 := rfl
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; rw [e0, htv]; omega
  | ⟨1, _⟩ => show win0_5.index t (1 : Fin 2) * 64 ≤ (i 1).val ∧ (i 1).val < win0_5.index t (1 : Fin 2) * 64 + 64; rw [e1]; omega

/-- THE RESULT ARRAY after the run is the layer function of the arrays as the kernel finds them. -/
theorem final (c : Dev nD) : (dats m 0 c).arrAt 5 cfg0.N = found m c :=
  (dats m 0 c).arrAt_eq_of_cover 5 (found m c) (fun t _ => flushed_eq m c t) covered

end Cert.KernelIdeal.Whole

end
-- ==== Proof.NeighbourMean.lean ====
/-
  The neighbour means the kernel's host prefix computes, as one function of the node features and the edge list.

  The edge list is a 2 × 1600000 integer array: row 0 holds each edge's source node, row 1 its target node.
  A negative source is wrapped once by the number of nodes (the usual reading of a negative array index), the
  source's feature row is gathered for every edge, the gathered rows are added into their target node's row of a
  zero array, the number of edges arriving at each node is counted the same way from a row of ones, and each
  node's summed row is divided by the larger of its count and one:

      mean[n, :] = ( Σ_{e : target e = n} x[source e, :] ) / max(#{e : target e = n}, 1).

  The same chain of operations, with the same constants, opens the reference program.
-/
import proofs.«178219_j7550552506693_1_alg».proof.Proof.Gen.KernelIdeal

noncomputable section

namespace Cert.KernelIdeal.Mean

open Cert.KernelIdeal Cert.KernelIdeal.Facts₀ Cert.KernelIdeal.Facts Idealize.ShloMosaic

variable {F : FTy → Type} [FloatOps F]

/-- Row 0 of the edge list: every edge's source node. -/
def sources (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge list: every edge's target node, as a column of one-entry index vectors. -/
def targets (e : (⟨S2x1600000, .i32⟩ : BufTy).Contents (Elt F)) : (⟨S1600000x1, .i32⟩ : BufTy).Contents (Elt F) :=
  broadcastInDim S1600000x1 ![0] bcast_S1600000_S1600000x1_0
    (shapeCast _ (extractStridedSlice S1x1600000 ![1, 0] e slices_S2x1600000_S1x1600000_1_0) shapeCasts_S1x1600000_S1600000)

/-- The sources with a negative one wrapped by the 100000 nodes, as a column of one-entry index vectors. -/
def wrappedSources (e : (⟨S2x1600000, .i32⟩ : BufTy).Contents (Elt F)) : (⟨S1600000x1, .i32⟩ : BufTy).Contents (Elt F) :=
  broadcastInDim S1600000x1 ![0] bcast_S1600000_S1600000x1_0
    (select (cmpi .slt (sources (F := F) e) (broadcastInDim S1600000 ![] bcast_S_S1600000 (constantI S_ 32 0#32)))
      (addi (sources (F := F) e) (broadcastInDim S1600000 ![] bcast_S_S1600000 (constantI S_ 32 100000#32)))
      (sources (F := F) e))

/-- Each node's row: the sum of the feature rows of the sources of the edges that arrive at it. -/
def summedRows (x : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (targets (F := F) e)
    (Host.gather gather_S100000x64_S1600000x1_S1600000x64_1_0_n_n_0_1_164 x (wrappedSources (F := F) e))

/-- The number of edges that arrive at each node, floored at one. -/
def flooredCounts (e : (⟨S2x1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (targets (F := F) e)
      (broadcastInDim S1600000 ![] bcast_S_S1600000 (constant S_ .f32 0x3F800000#32)))
    (broadcastInDim S100000 ![] bcast_S_S100000 (constant S_ .f32 0x3F800000#32))

/-- The neighbour means: each node's summed row divided, entry by entry, by its floored count. -/
def neighbourMean (x : (⟨S100000x64, .f32⟩ : BufTy).Contents (Elt F)) (e : (⟨S2x1600000, .i32⟩ : BufTy).Contents (Elt F)) :
    (⟨S100000x64, .f32⟩ : BufTy).Contents (Elt F) :=
  Host.divf (summedRows (F := F) x e)
    (broadcastInDim S100000x64 ![0, 1] bcast_S100000x1_S100000x64_0_1
      (broadcastInDim S100000x1 ![0] bcast_S100000_S100000x1_0 (flooredCounts (F := F) e)))

end Cert.KernelIdeal.Mean

end
-- ==== Proof.KernelPrefix.lean ====
/-
  The arrays the kernel is handed, read back through the host operations that run before it.

  The neighbour-mean array is the neighbour means of the launch features and edge list; the bias row is the bias
  vector reshaped to 1 × 64, whose entry (0, q) is the vector's entry q.
-/
import proofs.«178219_j7550552506693_1_alg».proof.Proof.Gen.KernelIdeal.Frame
import proofs.«178219_j7550552506693_1_alg».proof.Proof.NeighbourMean
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx

variable (m : (ℓ : Loc nD τ sig) → Buf (Elt Ideal) ℓ) (ρ : Dev nD → PrngReg)

/-! ## The arrays the kernel finds, through the host operations before it -/

set_option maxHeartbeats 2000000 in
/-- The neighbour-mean array the kernel is handed is the neighbour means of the launch features and edge list. -/
theorem mean_found (c : Dev nD) :
    (V m c main_v22 : S100000x64.Idx → EReal)
      = Cert.KernelIdeal.Mean.neighbourMean (F := Ideal) (m ((c : Thread nD τ).loc main_arg0)) (m ((c : Thread nD τ).loc main_arg1)) := by
  dsimp only [Gen.V, Gen.hostOps0]
  after_results_simp <;> rfl

set_option maxHeartbeats 2000000 in
/-- The bias row the kernel is handed is the bias vector reshaped to one row. -/
theorem bias_found (c : Dev nD) :
    (V m c main_v23 : S1x64.Idx → EReal) = shapeCast S1x64 (m ((c : Thread nD τ).loc main_arg4)) shapeCasts_S64_S1x64 := by
  dsimp only [Gen.V, Gen.hostOps0]
  after_results_simp <;> rfl

/-- Entry (0, q) of the reshaped bias row is entry q of the bias vector. -/
theorem bias_found_entry (c : Dev nD) (q : Fin 64) :
    (V m c main_v23 : S1x64.Idx → EReal) (ix2 0 q) = (m ((c : Thread nD τ).loc main_arg4) : S64.Idx → EReal) (ix1 q) := by
  rw [bias_found]
  exact shapeCast_apply _ shapeCasts_S64_S1x64 (ix2 0 q) (ix1 q)
    (by rewrite [Shape.rowMajor_val_two, Shape.rowMajor_val_one]; show q.val = 0 * 64 + q.val; omega)

end Cert.KernelIdeal.Whole

end
-- ==== Proof.KernelArray.lean ====
/-
  The kernel program's run, read: its result array as a function of its five arguments.

  The 20 blocks assembled give the layer function of the arrays as the kernel finds them; reading those arrays
  back through the host operations before the kernel gives the layer function of the neighbour means of the launch
  features and edge list, the features, the two weight matrices and the bias vector.
-/
import proofs.«178219_j7550552506693_1_alg».proof.Proof.KernelCover
import proofs.«178219_j7550552506693_1_alg».proof.Proof.KernelPrefix

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Idealize.ShloMosaic.ValueIdx

variable (m : (ℓ : Loc nD τ sig) → Buf (Elt Ideal) ℓ) (ρ : Dev nD → PrngReg)

/-- The layer function of the launch arrays: what the kernel computes, as a function of its arguments. -/
abbrev result (c : Dev nD) : S100000x64.Idx → EReal :=
  Cert.Sage.layer
    (Cert.KernelIdeal.Mean.neighbourMean (F := Ideal) (m ((c : Thread nD τ).loc main_arg0)) (m ((c : Thread nD τ).loc main_arg1)))
    (m ((c : Thread nD τ).loc main_arg0)) (m ((c : Thread nD τ).loc main_arg2)) (m ((c : Thread nD τ).loc main_arg3))
    (fun q => (m ((c : Thread nD τ).loc main_arg4) : S64.Idx → EReal) (ix1 q))

/-- The arrays the kernel finds, read back: the layer function of what it finds is the layer function of the
    launch arrays. -/
theorem found_eq_result (c : Dev nD) : found m c = result m c := by
  have eb : (fun q : Fin 64 => (V m c main_v23 : S1x64.Idx → EReal) (ix2 0 q))
      = fun q : Fin 64 => (m ((c : Thread nD τ).loc main_arg4) : S64.Idx → EReal) (ix1 q) :=
    funext fun q => bias_found_entry m c q
  unfold found result
  rw [mean_found m c, V_main_arg0 m c, V_main_arg2 m c, V_main_arg3 m c, eb]

/-! ## The run, read -/

/-- Every weakly fair execution of the kernel program terminates with the result array at the layer function of
    the launch arrays and the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1.trans (final m c)).trans (found_eq_result m c), (h c).2⟩)
    (Cert.KernelIdeal.Value.run_blocks m ρ)

end Cert.KernelIdeal.Whole

end
-- ==== Proof.RefLayer.lean ====
/-
  The reference program's result, entry by entry, is the layer function of its own neighbour-mean array.

  After the mean aggregation the reference computes  relu ( (agg · Wl + x · Wr) + b )  with two whole-array
  matrix products. Read at node `r`, feature `j`, each product is the sum over the 64 contraction positions, the
  bias (broadcast first to one row, then down all rows) is `b[j]`, and relu is the maximum with the zero
  constant: exactly `Cert.Sage.layer` at (r, j).
-/
import proofs.«178219_j7550552506693_1_alg».proof.Proof.Gen.ReferenceIdeal.Read
import proofs.«178219_j7550552506693_1_alg».proof.Proof.SageSpec

noncomputable section

namespace Cert.ReferenceIdeal.Layer

open Cert.ReferenceIdeal Cert.ReferenceIdeal.Gen Cert.ReferenceIdeal.Read Idealize.ShloMosaic Idealize.ShloMosaic.ValueIdx

/-- The reference's final array is the layer function of its neighbour means `val_main_v22`, the features, the
    two weight matrices and the bias vector. -/
theorem result_is_layer (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal)) :
    val_main_v29 (F := Ideal) x0 x1 x2 x3 x4
      = Cert.Sage.layer (val_main_v22 (F := Ideal) x0 x1) x0 x2 x3 (fun j => x4 (ix1 j)) := by
  funext i
  obtain ⟨r, j, rfl⟩ : ∃ (r : Fin 100000) (j : Fin 64), i = ix2 r j := ⟨i 0, i 1, eq_ix2 i⟩
  have el : ∀ k : Fin 64, lidx_main_v23 (ix2 r j) k = ix2 r k := fun k =>
    funext fun a => Fin.ext (by match a with | ⟨0, _⟩ => rfl | ⟨1, _⟩ => rfl)
  have er : ∀ k : Fin 64, ridx_main_v23 (ix2 r j) k = ix2 k j := fun k =>
    funext fun a => Fin.ext (by match a with | ⟨0, _⟩ => rfl | ⟨1, _⟩ => rfl)
  have el' : ∀ k : Fin 64, lidx_main_v24 (ix2 r j) k = ix2 r k := fun k =>
    funext fun a => Fin.ext (by match a with | ⟨0, _⟩ => rfl | ⟨1, _⟩ => rfl)
  have er' : ∀ k : Fin 64, ridx_main_v24 (ix2 r j) k = ix2 k j := fun k =>
    funext fun a => Fin.ext (by match a with | ⟨0, _⟩ => rfl | ⟨1, _⟩ => rfl)
  have eb : idx_main_v26 (idx_main_v27 (ix2 r j)) = ix1 j :=
    funext fun a => Fin.ext (by match a with | ⟨0, _⟩ => rfl)
  rw [Cert.Sage.layer_apply, val_main_v29_apply, val_main_v28_apply, val_main_v25_apply, val_main_v23_apply, val_main_v24_apply,
    val_main_v27_apply, val_main_v26_apply, val_main_call0_v0_apply, val_main_call0_cst_apply]
  simp only [el, er, el', er', eb]
  rfl

end Cert.ReferenceIdeal.Layer

end
-- ==== Proof.SameMean.lean ====
/-
  The two programs compute the same neighbour means.

  The reference program opens with the very chain of operations the kernel's host prefix runs — the same slices
  of the edge list, the same wrap of negative sources by 100000, the same gather, the same two scatter-adds into
  zero arrays, the same floor of the counts at one, the same division — with the same constants, so the two
  neighbour-mean arrays are one term of the features and the edge list.
-/
import proofs.«178219_j7550552506693_1_alg».proof.Proof.NeighbourMean
import proofs.«178219_j7550552506693_1_alg».proof.Proof.Gen.ReferenceIdeal.Read

noncomputable section

namespace Cert.Sage

open Idealize.ShloMosaic

variable {F : FTy → Type} [FloatOps F]

/-- The kernel's neighbour means are the reference's, operation for operation. -/
theorem same_mean (x : (⟨Cert.KernelIdeal.S100000x64, .f32⟩ : BufTy).Contents (Elt F)) (e : (⟨Cert.KernelIdeal.S2x1600000, .i32⟩ : BufTy).Contents (Elt F)) :
    Cert.KernelIdeal.Mean.neighbourMean (F := F) x e = Cert.ReferenceIdeal.Read.val_main_v22 (F := F) x e := rfl

end Cert.Sage

end
-- ==== Proof.LayerClaims.lean ====
/-
  The five claims.

  Frames: the kernel program's two frames are the generated frame runs; the reference has no kernel, so its frame
  is its run with the result dropped. The idealization rewrote nothing, so the kernel's idealized program is its own
  text read at the extended reals. The value claim: the kernel program ends with the layer function of its own
  neighbour means (its 20 row blocks assembled), the reference with the layer function of its neighbour means, and
  the two neighbour-mean arrays are one term of the features and the edge list.
-/
import proofs.«178219_j7550552506693_1_alg».proof.Defs
import proofs.«178219_j7550552506693_1_alg».proof.Proof.Gen.Kernel.Frame
import proofs.«178219_j7550552506693_1_alg».proof.Proof.Gen.KernelIdeal.Frame
import proofs.«178219_j7550552506693_1_alg».proof.Proof.Gen.ReferenceIdeal.Run
import proofs.«178219_j7550552506693_1_alg».proof.Proof.Gen.ReferenceIdeal.Read
import proofs.«178219_j7550552506693_1_alg».proof.Proof.Gen.Pre_finite_inputs
import proofs.«178219_j7550552506693_1_alg».proof.Proof.KernelArray
import proofs.«178219_j7550552506693_1_alg».proof.Proof.RefLayer
import proofs.«178219_j7550552506693_1_alg».proof.Proof.SameMean

noncomputable section

open Idealize.ShloMosaic Idealize.ShloMosaic.TcCoe Idealize.SL.Sem

namespace Cert.Proof.LayerClaims

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the five arguments, end with the layer function of the neighbour
    means, the features, the two weight matrices and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v29_eq, Cert.ReferenceIdeal.Layer.result_is_layer, h0, h1, h2, h3, h4,
    ← Cert.Sage.same_mean]

end Cert.Proof.LayerClaims

end
-- ==== Proof.lean ====
/-
  A mean-aggregating graph-convolution layer: Pallas kernel against its jnp reference, over the extended reals.

  Both programs first form, for each of the 100000 nodes, the mean of the 64-feature rows of the sources of the
  edges arriving at it (gather by source, add by target, divide by the arrival count floored at one), with the
  same host operations and constants (Proof/NeighbourMean.lean, Proof/SameMean.lean). Then each computes

      out[r, j] = max ( Σ_k mean[r, k] · Wl[k, j]  +  Σ_k x[r, k] · Wr[k, j]  +  b[j] ,  0 )

  (Proof/SageSpec.lean): the reference with two whole-array matrix products (Proof/RefLayer.lean), the kernel
  5000 rows at a time over 20 grid points, each product on the matrix unit into a zero accumulator
  (Proof/KernelEntry.lean for one block's entry, Proof/KernelArray.lean for the 20 blocks assembled and the host
  operations before the kernel read back). At the extended reals the narrowing of the matrix unit's operands is
  the identity and a product into a zero accumulator is the plain sum, so the two results are one function of the
  five arguments; no law that needs finite inputs is used. Proof/LayerClaims.lean states the claims.
-/
import proofs.«178219_j7550552506693_1_alg».proof.Defs
import proofs.«178219_j7550552506693_1_alg».proof.Proof.Gen.Kernel
import proofs.«178219_j7550552506693_1_alg».proof.Proof.Gen.Kernel.Skeleton
import proofs.«178219_j7550552506693_1_alg».proof.Proof.Gen.Kernel.Launch
import proofs.«178219_j7550552506693_1_alg».proof.Proof.Gen.Kernel.Points
import proofs.«178219_j7550552506693_1_alg».proof.Proof.Gen.Kernel.Frame
import proofs.«178219_j7550552506693_1_alg».proof.Proof.Gen.KernelIdeal
import proofs.«178219_j7550552506693_1_alg».proof.Proof.Gen.KernelIdeal.Skeleton
import proofs.«178219_j7550552506693_1_alg».proof.Proof.Gen.KernelIdeal.Launch
import proofs.«178219_j7550552506693_1_alg».proof.Proof.Gen.KernelIdeal.Points
import proofs.«178219_j7550552506693_1_alg».proof.Proof.Gen.KernelIdeal.Frame
import proofs.«178219_j7550552506693_1_alg».proof.Proof.Gen.ReferenceIdeal
import proofs.«178219_j7550552506693_1_alg».proof.Proof.Gen.Pre_finite_inputs
import proofs.«178219_j7550552506693_1_alg».proof.Proof.Gen.KernelIdeal.Value
import proofs.«178219_j7550552506693_1_alg».proof.Proof.Gen.ReferenceIdeal.Run
import proofs.«178219_j7550552506693_1_alg».proof.Proof.Gen.ReferenceIdeal.Read
import proofs.«178219_j7550552506693_1_alg».proof.Proof.LayerClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_kernel, LayerClaims.frame_kernel_ideal, LayerClaims.frame_reference, trivial, LayerClaims.algebraic⟩

end Cert.Proof

end
